-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x512 : Shape := ⟨3, ![16, 2048, 512]⟩
abbrev S8 : Shape := ⟨1, ![8]⟩
abbrev S2048x8 : Shape := ⟨2, ![2048, 8]⟩
abbrev S512x2048 : Shape := ⟨2, ![512, 2048]⟩
abbrev S_ : Shape := ⟨0, ![]⟩

class Facts : Prop where
  bcast_S_S16x2048x512 : S_.BroadcastsInDim S16x2048x512 (![] : Fin 0 → Fin S16x2048x512.rank)
  reducesTo_S16x2048x512_S_d0_1_2 : S16x2048x512.ReducesTo [0, 1, 2] S_
  h_S_ : 0 < S_.numel
  bcast_S_S8 : S_.BroadcastsInDim S8 (![] : Fin 0 → Fin S8.rank)
  reducesTo_S8_S_d0 : S8.ReducesTo [0] S_
  bcast_S_S2048x8 : S_.BroadcastsInDim S2048x8 (![] : Fin 0 → Fin S2048x8.rank)
  reducesTo_S2048x8_S_d0_1 : S2048x8.ReducesTo [0, 1] S_
  bcast_S_S512x2048 : S_.BroadcastsInDim S512x2048 (![] : Fin 0 → Fin S512x2048.rank)
  reducesTo_S512x2048_S_d0_1 : S512x2048.ReducesTo [0, 1] S_

variable [Facts]

def fn_part1 {F : FTy → Type} [FloatOps F] (main_v13 : IVec S_ 1) (main_v16 : IVec S512x2048 1) : IVec S_ 1 :=
  let main_c_5 : IVec S_ 1 := constantI S_ 1 1#1
  let main_v17 : IVec S_ 1 := (fun x v => Host.reduce IntOp.andi x v reducesTo_S512x2048_S_d0_1 h_S_) main_v16 main_c_5
  let main_v18 : IVec S_ 1 := andi main_v13 main_v17
  main_v18

def fn {F : FTy → Type} [FloatOps F] (main_arg0 : FVec F S16x2048x512 .f32) (main_arg1 : FVec F S8 .f32) (main_arg2 : FVec F S2048x8 .f32) (main_arg3 : FVec F S512x2048 .f32) : IVec S_ 1 :=
  let main_v0 : FVec F S16x2048x512 .f32 := Host.absf main_arg0
  let main_cst : FVec F S_ .f32 := constant S_ .f32 0x7F800000#32
  let main_v1 : FVec F S16x2048x512 .f32 := broadcastInDim S16x2048x512 ![] bcast_S_S16x2048x512 main_cst
  let main_v2 : IVec S16x2048x512 1 := cmpf .olt main_v0 main_v1
  let main_c : IVec S_ 1 := constantI S_ 1 1#1
  let main_v3 : IVec S_ 1 := (fun x v => Host.reduce IntOp.andi x v reducesTo_S16x2048x512_S_d0_1_2 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_v9 : FVec F S2048x8 .f32 := Host.absf main_arg2
  let main_cst_2 : FVec F S_ .f32 := constant S_ .f32 0x7F800000#32
  let main_v10 : FVec F S2048x8 .f32 := broadcastInDim S2048x8 ![] bcast_S_S2048x8 main_cst_2
  let main_v11 : IVec S2048x8 1 := cmpf .olt main_v9 main_v10
  let main_c_3 : IVec S_ 1 := constantI S_ 1 1#1
  let main_v12 : IVec S_ 1 := (fun x v => Host.reduce IntOp.andi x v reducesTo_S2048x8_S_d0_1 h_S_) main_v11 main_c_3
  let main_v13 : IVec S_ 1 := andi main_v8 main_v12
  let main_v14 : FVec F S512x2048 .f32 := Host.absf main_arg3
  let main_cst_4 : FVec F S_ .f32 := constant S_ .f32 0x7F800000#32
  let main_v15 : FVec F S512x2048 .f32 := broadcastInDim S512x2048 ![] bcast_S_S512x2048 main_cst_4
  let main_v16 : IVec S512x2048 1 := cmpf .olt main_v14 main_v15
  fn_part1 (F := F) main_v13 main_v16
-- ==== Kernel.lean ====
abbrev S16x2048x512 : Shape := ⟨3, ![16, 2048, 512]⟩
abbrev S8 : Shape := ⟨1, ![8]⟩
abbrev S2048x8 : Shape := ⟨2, ![2048, 8]⟩
abbrev S512x2048 : Shape := ⟨2, ![512, 2048]⟩
abbrev S32768x512 : Shape := ⟨2, ![32768, 512]⟩
abbrev S32768x8 : Shape := ⟨2, ![32768, 8]⟩
abbrev S1x8 : Shape := ⟨2, ![1, 8]⟩
abbrev S8x2048 : Shape := ⟨2, ![8, 2048]⟩
abbrev S2048x512 : Shape := ⟨2, ![2048, 512]⟩
abbrev S1024x8 : Shape := ⟨2, ![1024, 8]⟩
abbrev S1024x512 : Shape := ⟨2, ![1024, 512]⟩
abbrev S1024x2048 : Shape := ⟨2, ![1024, 2048]⟩

abbrev nBuf : Space → Nat
  | .hbm => 13
  | .vmem => 7
  | .smem => 0
  | _ => 0

abbrev bufTy : (tb : Table) → Fin (tcTables nBuf tb) → BufTy
  | .hbm, ⟨0, _⟩ => ⟨S16x2048x512, .f32⟩
  | .hbm, ⟨1, _⟩ => ⟨S8, .f32⟩
  | .hbm, ⟨2, _⟩ => ⟨S2048x8, .f32⟩
  | .hbm, ⟨3, _⟩ => ⟨S512x2048, .f32⟩
  | .hbm, ⟨4, _⟩ => ⟨S32768x512, .f32⟩
  | .hbm, ⟨5, _⟩ => ⟨S32768x8, .f32⟩
  | .hbm, ⟨6, _⟩ => ⟨S1x8, .f32⟩
  | .hbm, ⟨7, _⟩ => ⟨S8x2048, .f32⟩
  | .hbm, ⟨8, _⟩ => ⟨S8x2048, .bf16⟩
  | .hbm, ⟨9, _⟩ => ⟨S2048x512, .f32⟩
  | .hbm, ⟨10, _⟩ => ⟨S2048x512, .bf16⟩
  | .hbm, ⟨11, _⟩ => ⟨S32768x512, .f32⟩
  | .hbm, ⟨12, _⟩ => ⟨S16x2048x512, .f32⟩
  | .local _ .vmem, ⟨0, _⟩ => ⟨S1024x8, .f32⟩
  | .local _ .vmem, ⟨1, _⟩ => ⟨S1024x8, .f32⟩
  | .local _ .vmem, ⟨2, _⟩ => ⟨S1x8, .f32⟩
  | .local _ .vmem, ⟨3, _⟩ => ⟨S8x2048, .bf16⟩
  | .local _ .vmem, ⟨4, _⟩ => ⟨S2048x512, .bf16⟩
  | .local _ .vmem, ⟨5, _⟩ => ⟨S1024x512, .f32⟩
  | .local _ .vmem, ⟨6, _⟩ => ⟨S1024x512, .f32⟩
  | _, _ => ⟨S16x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16x2048x512_S32768x512 : S16x2048x512.ShapeCasts S32768x512
  slices_S32768x512_S32768x8_0_0 : S32768x512.Slices ![0, 0] S32768x8
  shapeCasts_S8_S1x8 : S8.ShapeCasts S1x8
  transposes_S2048x8_S8x2048_1_0 : S2048x8.Transposes [1, 0] S8x2048
  bitsLt_bf16_f32 : FTy.bits .bf16 < FTy.bits .f32
  transposes_S512x2048_S2048x512_1_0 : S512x2048.Transposes [1, 0] S2048x512
  inb_S1024x8_S1024x8_0_0 : ∀ a, (![0, 0] : Fin 2 → Nat) a + S1024x8.size a ≤ S1024x8.size a
  h_S1024x8 : 0 < S1024x8.numel
  shapeCasts_S1024x8_S1024x8 : S1024x8.ShapeCasts S1024x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S1024x8 : S1x8.Broadcasts S1024x8
  inb_S8x2048_S8x2048_0_0 : ∀ a, (![0, 0] : Fin 2 → Nat) a + S8x2048.size a ≤ S8x2048.size a
  h_S8x2048 : 0 < S8x2048.numel
  shapeCasts_S8x2048_S8x2048 : S8x2048.ShapeCasts S8x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  shapeCasts_S32768x512_S16x2048x512 : S32768x512.ShapeCasts S16x2048x512
  dot_S1024x8_S8x2048_S1024x2048_1_0_0_1_n_n_wf : DotDims.WF S1024x8 S8x2048 S1024x2048 [1] [0] [0] [1] [] []
  dot_S1024x2048_S2048x512_S1024x512_1_0_0_1_n_n_wf : DotDims.WF S1024x2048 S2048x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x8.size a ≤ S32768x8.size a
  hwx0_0 : ∀ i : grid0.Coords, EltTy.bits .f32 = 32 ∨ (Rect.block (s := S32768x8) S1024x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8.size a ≤ S1x8.size a
  hwx0_1 : ∀ i : grid0.Coords, EltTy.bits .f32 = 32 ∨ (Rect.block (s := S1x8) S1x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x2048.size a ≤ S8x2048.size a
  hwx0_2 : ∀ i : grid0.Coords, EltTy.bits .bf16 = 32 ∨ (Rect.block (s := S8x2048) S8x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S2048x512.size a
  hwx0_3 : ∀ i : grid0.Coords, EltTy.bits .bf16 = 32 ∨ (Rect.block (s := S2048x512) S2048x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S32768x512.size a
  hwx0_4 : ∀ i : grid0.Coords, EltTy.bits .f32 = 32 ∨ (Rect.block (s := S32768x512) S1024x512.size (cc0_transform_4 i) (hinb0_4 i)).WholeWords (EltTy.packing .f32)

variable [Facts₀]

def dot_S1024x8_S8x2048_S1024x2048_1_0_0_1_n_n : DotDims S1024x8 S8x2048 S1024x2048 where
  lhsContracting := [1]
  rhsContracting := [0]
  lhsNonContracting := [0]
  rhsNonContracting := [1]
  lhsBatch := []
  rhsBatch := []
  wf := dot_S1024x8_S8x2048_S1024x2048_1_0_0_1_n_n_wf
def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf

abbrev win0_0 : Pipeline.Window sig grid0 :=
  Pipeline.Window.ofSpec (Memref.whole main_v1) S1024x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S8x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S2048x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x2048x512 : Shape := ⟨3, ![16, 2048, 512]⟩
abbrev S8 : Shape := ⟨1, ![8]⟩
abbrev S2048x8 : Shape := ⟨2, ![2048, 8]⟩
abbrev S512x2048 : Shape := ⟨2, ![512, 2048]⟩
abbrev S16x2048x8 : Shape := ⟨3, ![16, 2048, 8]⟩
abbrev S_ : Shape := ⟨0, ![]⟩
abbrev S1x1x8 : Shape := ⟨3, ![1, 1, 8]⟩
abbrev S16x2048x2048 : Shape := ⟨3, ![16, 2048, 2048]⟩

abbrev nBuf : Space → Nat
  | .hbm => 17
  | .vmem => 0
  | .smem => 0
  | _ => 0

abbrev bufTy : (tb : Table) → Fin (tcTables nBuf tb) → BufTy
  | .hbm, ⟨0, _⟩ => ⟨S16x2048x512, .f32⟩
  | .hbm, ⟨1, _⟩ => ⟨S8, .f32⟩
  | .hbm, ⟨2, _⟩ => ⟨S2048x8, .f32⟩
  | .hbm, ⟨3, _⟩ => ⟨S512x2048, .f32⟩
  | .hbm, ⟨4, _⟩ => ⟨S16x2048x8, .f32⟩
  | .hbm, ⟨5, _⟩ => ⟨S_, .f32⟩
  | .hbm, ⟨6, _⟩ => ⟨S16x2048x8, .f32⟩
  | .hbm, ⟨7, _⟩ => ⟨S16x2048x8, .f32⟩
  | .hbm, ⟨8, _⟩ => ⟨S1x1x8, .f32⟩
  | .hbm, ⟨9, _⟩ => ⟨S16x2048x8, .f32⟩
  | .hbm, ⟨10, _⟩ => ⟨S16x2048x8, .f32⟩
  | .hbm, ⟨11, _⟩ => ⟨S16x2048x8, .f32⟩
  | .hbm, ⟨12, _⟩ => ⟨S16x2048x2048, .f32⟩
  | .hbm, ⟨13, _⟩ => ⟨S_, .f32⟩
  | .hbm, ⟨14, _⟩ => ⟨S16x2048x2048, .f32⟩
  | .hbm, ⟨15, _⟩ => ⟨S16x2048x2048, .f32⟩
  | .hbm, ⟨16, _⟩ => ⟨S16x2048x512, .f32⟩
  | _, _ => ⟨S16x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_cst : Ref sig .tc := ⟨.hbm, 13, rfl⟩
abbrev main_call0_v0 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]

class Facts₀ : Prop where
  slices_S16x2048x512_S16x2048x8_0_0_0 : S16x2048x512.Slices ![0, 0, 0] S16x2048x8
  bcast_S_S16x2048x8 : S_.BroadcastsInDim S16x2048x8 (![] : Fin 0 → Fin S16x2048x8.rank)
  bcast_S8_S1x1x8_2 : S8.BroadcastsInDim S1x1x8 (![2] : Fin 1 → Fin S1x1x8.rank)
  bcast_S1x1x8_S16x2048x8_0_1_2 : S1x1x8.BroadcastsInDim S16x2048x8 (![0, 1, 2] : Fin 3 → Fin S16x2048x8.rank)
  bcast_S_S16x2048x2048 : S_.BroadcastsInDim S16x2048x2048 (![] : Fin 0 → Fin S16x2048x2048.rank)
  dot_S16x2048x8_S2048x8_S16x2048x2048_2_1_01_0_n_n_wf : DotDims.WF S16x2048x8 S2048x8 S16x2048x2048 [2] [1] [0, 1] [0] [] []
  dot_S16x2048x2048_S512x2048_S16x2048x512_2_1_01_0_n_n_wf : DotDims.WF S16x2048x2048 S512x2048 S16x2048x512 [2] [1] [0, 1] [0] [] []

variable [Facts₀]

def dot_S16x2048x8_S2048x8_S16x2048x2048_2_1_01_0_n_n : DotDims S16x2048x8 S2048x8 S16x2048x2048 where
  lhsContracting := [2]
  rhsContracting := [1]
  lhsNonContracting := [0, 1]
  rhsNonContracting := [0]
  lhsBatch := []
  rhsBatch := []
  wf := dot_S16x2048x8_S2048x8_S16x2048x2048_2_1_01_0_n_n_wf
def dot_S16x2048x2048_S512x2048_S16x2048x512_2_1_01_0_n_n : DotDims S16x2048x2048 S512x2048 S16x2048x512 where
  lhsContracting := [2]
  rhsContracting := [1]
  lhsNonContracting := [0, 1]
  rhsNonContracting := [0]
  lhsBatch := []
  rhsBatch := []
  wf := dot_S16x2048x2048_S512x2048_S16x2048x512_2_1_01_0_n_n_wf

class Facts : Prop extends Facts₀ where

variable [Facts]
-- ==== Proof.Spec.lean ====
/-
  What both programs compute, as one function of the four argument arrays over the extended reals.

  A token is a pair (b, s) of batch and position; only its first 8 of 512 channels are used. Each of the
  8 "wires" q of a token gives the expectation cos(2·x[b,s,q] + θ[q]); a first linear layer and a ramp give the
  2048 hidden values  h[b,s,f] = max(Σ_q cos(2·x[b,s,q] + θ[q]) · W1[f,q], 0);  a second linear layer gives the 512
  outputs  out[b,s,e] = Σ_f h[b,s,f] · W2[e,f].

  The same function is also stated by token ROW r = b·2048 + s over the [32768, 512] matrix of all tokens (the
  arrangement in which the tokens are worked off in tiles of 1024 rows), and the two arrangements are related by the
  row-major reshape: row r is the token (r / 2048, r % 2048).
-/
import Idealize.ShloMosaic.PureOps.Ideal
import Idealize.ShloMosaic.Lib.ValueIdx
import Idealize.ShloMosaic.Lib.Pipeline.Value

noncomputable section

namespace Cert.WireMlp

open Idealize.ShloMosaic Idealize.ShloMosaic.ValueIdx

/-- The arrays' literal shapes: tokens × channels, the wire angles, the two weight matrices, and the matrix of
    token rows. -/
abbrev TokS : Shape := ⟨3, ![16, 2048, 512]⟩
abbrev AngS : Shape := ⟨1, ![8]⟩
abbrev InS : Shape := ⟨2, ![2048, 8]⟩
abbrev OutS : Shape := ⟨2, ![512, 2048]⟩
abbrev RowS : Shape := ⟨2, ![32768, 512]⟩

/-- Wire `q` reads channel `q` of the 512. -/
abbrev chan (q : Fin 8) : Fin 512 := ⟨q.val, Nat.lt_of_lt_of_le q.isLt (by decide)⟩

/-- The expectation of wire `q` of token (b, s): cos(2·x + θ). -/
def wire (x : TokS.Idx → EReal) (θ : AngS.Idx → EReal) (b : Fin 16) (s : Fin 2048) (q : Fin 8) : EReal :=
  Ideal.cos (Ideal.ofBits .f32 0x40000000#32 * x (ix3 b s (chan q)) + θ (ix1 q))

/-- Hidden unit `f` of token (b, s): the ramp of the first layer's sum over the 8 wires. -/
def hiddenAt (x : TokS.Idx → EReal) (θ : AngS.Idx → EReal) (W1 : InS.Idx → EReal) (b : Fin 16) (s : Fin 2048) (f : Fin 2048) : EReal :=
  max (∑ q : Fin 8, wire x θ b s q * W1 (ix2 f q)) (Ideal.ofBits .f32 0x00000000#32)

/-- The result: output channel `e` of token (b, s) is the second layer's sum over the 2048 hidden units. -/
def mlp (x : TokS.Idx → EReal) (θ : AngS.Idx → EReal) (W1 : InS.Idx → EReal) (W2 : OutS.Idx → EReal) : TokS.Idx → EReal :=
  fun i => ∑ f : Fin 2048, hiddenAt x θ W1 ⟨(i 0).val, (i 0).isLt⟩ ⟨(i 1).val, (i 1).isLt⟩ f * W2 (ix2 ⟨(i 2).val, (i 2).isLt⟩ f)

/-- Token row `r` is batch `r / 2048`, -/
abbrev rowB (r : Nat) (h : r < 32768) : Fin 16 := ⟨r / 2048, by omega⟩
/-- position `r % 2048`. -/
abbrev rowS (r : Nat) : Fin 2048 := ⟨r % 2048, Nat.mod_lt _ (by decide)⟩

/-- The result by token rows: entry (r, e) of the [32768, 512] matrix. -/
def mlpRows (x : TokS.Idx → EReal) (θ : AngS.Idx → EReal) (W1 : InS.Idx → EReal) (W2 : OutS.Idx → EReal) : RowS.Idx → EReal :=
  fun j => ∑ f : Fin 2048, hiddenAt x θ W1 (rowB (j 0).val (j 0).isLt) (rowS (j 0).val) f * W2 (ix2 ⟨(j 1).val, (j 1).isLt⟩ f)

/-- The row-major reshape of the matrix of token rows to [16, 2048, 512] is the result by tokens: entry (b, s, e)
    is row b·2048 + s, whose batch and position are b and s again. -/
theorem reshape_mlpRows (x : TokS.Idx → EReal) (θ : AngS.Idx → EReal) (W1 : InS.Idx → EReal) (W2 : OutS.Idx → EReal)
    (h : RowS.ShapeCasts TokS) : shapeCast TokS (mlpRows x θ W1 W2) h = mlp x θ W1 W2 := by
  funext i
  have h0 : (i 0).val < 16 := (i 0).isLt
  have h1 : (i 1).val < 2048 := (i 1).isLt
  have h2 : (i 2).val < 512 := (i 2).isLt
  rw [shapeCast_apply (mlpRows x θ W1 W2) h i (ix2 ⟨(i 0).val * 2048 + (i 1).val, by omega⟩ ⟨(i 2).val, h2⟩) (by
    rw [Shape.rowMajor_val_two, Shape.rowMajor_val_three]
    show ((i 0).val * 2048 + (i 1).val) * 512 + (i 2).val = ((i 0).val * 2048 + (i 1).val) * 512 + (i 2).val
    rfl)]
  unfold mlpRows mlp
  have eb : rowB ((i 0).val * 2048 + (i 1).val) (by omega) = ⟨(i 0).val, h0⟩ := Fin.ext (by show ((i 0).val * 2048 + (i 1).val) / 2048 = (i 0).val; omega)
  have es : rowS ((i 0).val * 2048 + (i 1).val) = ⟨(i 1).val, h1⟩ := Fin.ext (by show ((i 0).val * 2048 + (i 1).val) % 2048 = (i 1).val; omega)
  show (∑ f : Fin 2048, hiddenAt x θ W1 (rowB ((i 0).val * 2048 + (i 1).val) _) (rowS ((i 0).val * 2048 + (i 1).val)) f * W2 (ix2 ⟨(i 2).val, _⟩ f)) = _
  rw [eb, es]

end Cert.WireMlp

end
-- ==== Proof.RefSpec.lean ====
/-
  The reference computes the specification: read one operation at a time, entry (b, s, e) of its result is the
  sum over the 2048 hidden units f of  max(Σ_q cos(2·x[b,s,q] + θ[q]) · W1[f,q], 0) · W2[e,f]  — the slice keeps
  channels 0..7 in place, the two broadcasts of θ read θ[q], and the two contractions run over the last axis of
  their left operand and the last axis of the weight matrix.
-/
import proofs.«137447_j65481071396095_1_alg».proof.Proof.Gen.ReferenceIdeal.Run
import proofs.«137447_j65481071396095_1_alg».proof.Proof.Gen.ReferenceIdeal.Read
import proofs.«137447_j65481071396095_1_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.WireMlp

/-- Wire `q` of the token of result entry `i`, as the reference reads it: the cosine stage at the index the two
    contractions hand down. -/
theorem wire_at (x : FVec Ideal S16x2048x512 .f32) (θ : FVec Ideal S8 .f32) (i : S16x2048x512.Idx) (f : Fin 2048) (q : Fin 8) :
    val_main_v6 (F := Ideal) x θ (lidx_main_v7 (lidx_main_v9 i f) q)
      = wire x θ ⟨(i 0).val, (i 0).isLt⟩ ⟨(i 1).val, (i 1).isLt⟩ q := by
  have e0 : idx_main_v0 (lidx_main_v7 (lidx_main_v9 i f) q) = ix3 ⟨(i 0).val, (i 0).isLt⟩ ⟨(i 1).val, (i 1).isLt⟩ (chan q) :=
    funext fun a => Fin.ext (by match a with | ⟨0, _⟩ => rfl | ⟨1, _⟩ => rfl | ⟨2, _⟩ => rfl)
  have e1 : idx_main_v3 (idx_main_v4 (lidx_main_v7 (lidx_main_v9 i f) q)) = ix1 q :=
    funext fun a => Fin.ext (by match a with | ⟨0, _⟩ => rfl)
  rw [val_main_v6_apply, val_main_v5_apply, val_main_v2_apply, val_main_v1_apply, val_main_cst_apply, val_main_v0_apply,
    val_main_v4_apply, val_main_v3_apply, e0, e1]
  rfl

/-- The reference's result is the specification, entry by entry. -/
theorem result_eq (x : FVec Ideal S16x2048x512 .f32) (θ : FVec Ideal S8 .f32) (W1 : FVec Ideal S2048x8 .f32) (W2 : FVec Ideal S512x2048 .f32) :
    val_main_v9 (F := Ideal) x θ W1 W2 = mlp x θ W1 W2 := by
  funext i
  rw [val_main_v9_apply]
  unfold mlp
  refine Finset.sum_congr rfl fun f _ => ?_
  have er : ridx_main_v9 i f = ix2 ⟨(i 2).val, (i 2).isLt⟩ f :=
    funext fun a => Fin.ext (by match a with | ⟨0, _⟩ => rfl | ⟨1, _⟩ => rfl)
  rw [er, val_main_v8_apply, val_main_v7_apply, val_main_call0_v0_apply, val_main_call0_cst_apply]
  unfold hiddenAt
  refine congrArg (· * W2 _) (congrArg (max · _) (Finset.sum_congr rfl fun q _ => ?_))
  have ew : ridx_main_v7 (lidx_main_v9 i f) q = ix2 f q :=
    funext fun a => Fin.ext (by match a with | ⟨0, _⟩ => rfl | ⟨1, _⟩ => rfl)
  rw [ew, wire_at]

end Cert.ReferenceIdeal.RefValue

end
-- ==== Proof.KernelBody.lean ====
/-
  What one tile of the kernel stores, entry by entry, over the extended reals.

  The body works on a tile of 1024 token rows: `x0` is the tile's [1024, 8] block of the first 8 channels, `x1` the
  [1, 8] row of angles, `x2` the first weight matrix transposed ([8, 2048]) and `x3` the second transposed
  ([2048, 512]). Entry (p, e) of what it stores is
      Σ_f max(Σ_q cos(2·x0[p,q] + x1[0,q]) · x2[q,f], 0) · x3[f,e]:
  each matrix product into a zero accumulator is the plain sum over its one contracted axis, the changes of float
  format are the identity, and the angles' row is read at every row of the tile.
-/
import proofs.«137447_j65481071396095_1_alg».proof.Proof.Gen.KernelIdeal.Skeleton
import proofs.«137447_j65481071396095_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.WireMlp

/-! ## The two products' operand indices, axis by axis -/

theorem lhsFirst_0 (i : S1024x2048.Idx) (q : dot_S1024x8_S8x2048_S1024x2048_1_0_0_1_n_n.contr.Idx) :
    (dot_S1024x8_S8x2048_S1024x2048_1_0_0_1_n_n.lhsIdx i q 0).val = (i 0).val := by
  unfold DotDims.lhsIdx
  rw [dif_neg (show ¬(0 : Fin S1024x8.rank) ∈ dot_S1024x8_S8x2048_S1024x2048_1_0_0_1_n_n.lhsBatch by decide), dif_pos (show (0 : Fin S1024x8.rank) ∈ dot_S1024x8_S8x2048_S1024x2048_1_0_0_1_n_n.lhsNonContracting by decide)]
  rfl
theorem lhsFirst_1 (i : S1024x2048.Idx) (q : dot_S1024x8_S8x2048_S1024x2048_1_0_0_1_n_n.contr.Idx) :
    (dot_S1024x8_S8x2048_S1024x2048_1_0_0_1_n_n.lhsIdx i q 1).val = (q ⟨0, by decide⟩).val :=
  dot_S1024x8_S8x2048_S1024x2048_1_0_0_1_n_n.lhsIdx_val_of_single rfl i q
theorem rhsFirst_0 (i : S1024x2048.Idx) (q : dot_S1024x8_S8x2048_S1024x2048_1_0_0_1_n_n.contr.Idx) :
    (dot_S1024x8_S8x2048_S1024x2048_1_0_0_1_n_n.rhsIdx i q 0).val = (q ⟨0, by decide⟩).val :=
  dot_S1024x8_S8x2048_S1024x2048_1_0_0_1_n_n.rhsIdx_val_of_single rfl i q
theorem rhsFirst_1 (i : S1024x2048.Idx) (q : dot_S1024x8_S8x2048_S1024x2048_1_0_0_1_n_n.contr.Idx) :
    (dot_S1024x8_S8x2048_S1024x2048_1_0_0_1_n_n.rhsIdx i q 1).val = (i 1).val := by
  unfold DotDims.rhsIdx
  rw [dif_neg (show ¬(1 : Fin S8x2048.rank) ∈ dot_S1024x8_S8x2048_S1024x2048_1_0_0_1_n_n.rhsBatch by decide), dif_pos (show (1 : Fin S8x2048.rank) ∈ dot_S1024x8_S8x2048_S1024x2048_1_0_0_1_n_n.rhsNonContracting by decide)]
  rfl

theorem lhsSecond_0 (i : S1024x512.Idx) (q : dot_S1024x2048_S2048x512_S1024x512_1_0_0_1_n_n.contr.Idx) :
    (dot_S1024x2048_S2048x512_S1024x512_1_0_0_1_n_n.lhsIdx i q 0).val = (i 0).val := by
  unfold DotDims.lhsIdx
  rw [dif_neg (show ¬(0 : Fin S1024x2048.rank) ∈ dot_S1024x2048_S2048x512_S1024x512_1_0_0_1_n_n.lhsBatch by decide), dif_pos (show (0 : Fin S1024x2048.rank) ∈ dot_S1024x2048_S2048x512_S1024x512_1_0_0_1_n_n.lhsNonContracting by decide)]
  rfl
theorem lhsSecond_1 (i : S1024x512.Idx) (q : dot_S1024x2048_S2048x512_S1024x512_1_0_0_1_n_n.contr.Idx) :
    (dot_S1024x2048_S2048x512_S1024x512_1_0_0_1_n_n.lhsIdx i q 1).val = (q ⟨0, by decide⟩).val :=
  dot_S1024x2048_S2048x512_S1024x512_1_0_0_1_n_n.lhsIdx_val_of_single rfl i q
theorem rhsSecond_0 (i : S1024x512.Idx) (q : dot_S1024x2048_S2048x512_S1024x512_1_0_0_1_n_n.contr.Idx) :
    (dot_S1024x2048_S2048x512_S1024x512_1_0_0_1_n_n.rhsIdx i q 0).val = (q ⟨0, by decide⟩).val :=
  dot_S1024x2048_S2048x512_S1024x512_1_0_0_1_n_n.rhsIdx_val_of_single rfl i q
theorem rhsSecond_1 (i : S1024x512.Idx) (q : dot_S1024x2048_S2048x512_S1024x512_1_0_0_1_n_n.contr.Idx) :
    (dot_S1024x2048_S2048x512_S1024x512_1_0_0_1_n_n.rhsIdx i q 1).val = (i 1).val := by
  unfold DotDims.rhsIdx
  rw [dif_neg (show ¬(1 : Fin S2048x512.rank) ∈ dot_S1024x2048_S2048x512_S1024x512_1_0_0_1_n_n.rhsBatch by decide), dif_pos (show (1 : Fin S2048x512.rank) ∈ dot_S1024x2048_S2048x512_S1024x512_1_0_0_1_n_n.rhsNonContracting by decide)]
  rfl

/-! ## The two products read at an entry -/

/-- The first layer's product [1024, 8] × [8, 2048] into zero: entry (p, c) is the sum over the 8 wires. -/
theorem First_apply (l : FVec Ideal S1024x8 .bf16) (r : FVec Ideal S8x2048 .bf16) (p : Fin 1024) (c : Fin 2048) :
    matmul dot_S1024x8_S8x2048_S1024x2048_1_0_0_1_n_n none l r (constant S1024x2048 .f32 0x00000000#32) (ix2 p c) = ∑ k : Fin 8, l (ix2 p k) * r (ix2 k c) := by
  refine (Ideal.matmul_constant_zero_apply dot_S1024x8_S8x2048_S1024x2048_1_0_0_1_n_n none l r (ix2 p c)).trans ?_
  rw [← Equiv.sum_comp (contrEquiv1 dot_S1024x8_S8x2048_S1024x2048_1_0_0_1_n_n 8 rfl rfl).symm]
  refine Finset.sum_congr rfl fun k _ => ?_
  have hk := contrEquiv1_symm_val dot_S1024x8_S8x2048_S1024x2048_1_0_0_1_n_n 8 rfl rfl k
  have el : dot_S1024x8_S8x2048_S1024x2048_1_0_0_1_n_n.lhsIdx (ix2 p c) ((contrEquiv1 dot_S1024x8_S8x2048_S1024x2048_1_0_0_1_n_n 8 rfl rfl).symm k) = ix2 p k := funext fun a => Fin.ext (by
    match a with
    | ⟨0, _⟩ => exact lhsFirst_0 _ _
    | ⟨1, _⟩ => exact (lhsFirst_1 _ _).trans hk)
  have er : dot_S1024x8_S8x2048_S1024x2048_1_0_0_1_n_n.rhsIdx (ix2 p c) ((contrEquiv1 dot_S1024x8_S8x2048_S1024x2048_1_0_0_1_n_n 8 rfl rfl).symm k) = ix2 k c := funext fun a => Fin.ext (by
    match a with
    | ⟨0, _⟩ => exact (rhsFirst_0 _ _).trans hk
    | ⟨1, _⟩ => exact rhsFirst_1 _ _)
  rw [el, er]

/-- The second layer's product [1024, 2048] × [2048, 512] into zero: entry (p, c) is the sum over the 2048 hidden units. -/
theorem Second_apply (l : FVec Ideal S1024x2048 .bf16) (r : FVec Ideal S2048x512 .bf16) (p : Fin 1024) (c : Fin 512) :
    matmul dot_S1024x2048_S2048x512_S1024x512_1_0_0_1_n_n none l r (constant S1024x512 .f32 0x00000000#32) (ix2 p c) = ∑ k : Fin 2048, l (ix2 p k) * r (ix2 k c) := by
  refine (Ideal.matmul_constant_zero_apply dot_S1024x2048_S2048x512_S1024x512_1_0_0_1_n_n none l r (ix2 p c)).trans ?_
  rw [← Equiv.sum_comp (contrEquiv1 dot_S1024x2048_S2048x512_S1024x512_1_0_0_1_n_n 2048 rfl rfl).symm]
  refine Finset.sum_congr rfl fun k _ => ?_
  have hk := contrEquiv1_symm_val dot_S1024x2048_S2048x512_S1024x512_1_0_0_1_n_n 2048 rfl rfl k
  have el : dot_S1024x2048_S2048x512_S1024x512_1_0_0_1_n_n.lhsIdx (ix2 p c) ((contrEquiv1 dot_S1024x2048_S2048x512_S1024x512_1_0_0_1_n_n 2048 rfl rfl).symm k) = ix2 p k := funext fun a => Fin.ext (by
    match a with
    | ⟨0, _⟩ => exact lhsSecond_0 _ _
    | ⟨1, _⟩ => exact (lhsSecond_1 _ _).trans hk)
  have er : dot_S1024x2048_S2048x512_S1024x512_1_0_0_1_n_n.rhsIdx (ix2 p c) ((contrEquiv1 dot_S1024x2048_S2048x512_S1024x512_1_0_0_1_n_n 2048 rfl rfl).symm k) = ix2 k c := funext fun a => Fin.ext (by
    match a with
    | ⟨0, _⟩ => exact (rhsSecond_0 _ _).trans hk
    | ⟨1, _⟩ => exact rhsSecond_1 _ _)
  rw [el, er]

/-! ## The stored tile -/

/-- Entry (p, e) of the tile the body stores, from its four loaded blocks. -/
theorem stored_apply (x0 : FVec Ideal S1024x8 .f32) (x1 : FVec Ideal S1x8 .f32) (x2 : FVec Ideal S8x2048 .bf16) (x3 : FVec Ideal S2048x512 .bf16)
    (p : Fin 1024) (e : Fin 512) :
    k0_pay1 (F := Ideal) x0 x1 x2 x3 (ix2 p e)
      = ∑ f : Fin 2048, max (∑ q : Fin 8, Ideal.cos (Ideal.ofBits .f32 0x40000000#32 * x0 (ix2 p q) + x1 (ix2 (0 : Fin 1) q)) * x2 (ix2 q f))
          (Ideal.ofBits .f32 0x00000000#32) * x3 (ix2 f e) := by
  unfold k0_pay1
  simp only [shapeCast_self]
  refine (Second_apply _ _ p e).trans (Finset.sum_congr rfl fun f _ => ?_)
  refine congrArg (· * x3 (ix2 f e)) ?_
  show max (matmul dot_S1024x8_S8x2048_S1024x2048_1_0_0_1_n_n none _ x2 (constant S1024x2048 .f32 0x00000000#32) (ix2 p f)) (Ideal.ofBits .f32 0x00000000#32) = _
  refine congrArg (max · _) ((First_apply _ _ p f).trans (Finset.sum_congr rfl fun q _ => ?_))
  refine congrArg (· * x2 (ix2 q f)) ?_
  show Ideal.cos (Ideal.ofBits .f32 0x40000000#32 * x0 (ix2 p q) + broadcastTo S1024x8 x1 broadcasts_S1x8_S1024x8 (ix2 p q)) = _
  rw [broadcastTo_1b_ab_apply]

/-- The stored tile is a tile of the specification's matrix of token rows: if row `p` of the tokens' block is token row
    `r`, the angles' row is θ, and the two weight blocks are the weight matrices transposed, then entry (p, e) of what
    the body stores is entry (r, e) of the result by token rows. -/
theorem tile_entry (x : TokS.Idx → EReal) (θ : AngS.Idx → EReal) (W1 : InS.Idx → EReal) (W2 : OutS.Idx → EReal)
    (x0 : FVec Ideal S1024x8 .f32) (x1 : FVec Ideal S1x8 .f32) (x2 : FVec Ideal S8x2048 .bf16) (x3 : FVec Ideal S2048x512 .bf16)
    (r : Fin 32768) (p : Fin 1024) (e : Fin 512)
    (h0 : ∀ q : Fin 8, x0 (ix2 p q) = x (ix3 (rowB r.val r.isLt) (rowS r.val) (chan q)))
    (h1 : ∀ q : Fin 8, x1 (ix2 (0 : Fin 1) q) = θ (ix1 q))
    (h2 : ∀ (q : Fin 8) (f : Fin 2048), x2 (ix2 q f) = W1 (ix2 f q))
    (h3 : ∀ f : Fin 2048, x3 (ix2 f e) = W2 (ix2 e f)) :
    k0_pay1 (F := Ideal) x0 x1 x2 x3 (ix2 p e) = mlpRows x θ W1 W2 (ix2 r e) := by
  refine (stored_apply x0 x1 x2 x3 p e).trans ?_
  unfold mlpRows hiddenAt wire
  show _ = ∑ f : Fin 2048, max (∑ q : Fin 8, Ideal.cos (Ideal.ofBits .f32 0x40000000#32 * x (ix3 (rowB r.val r.isLt) (rowS r.val) (chan q)) + θ (ix1 q)) * W1 (ix2 f q))
      (Ideal.ofBits .f32 0x00000000#32) * W2 (ix2 e f)
  refine Finset.sum_congr rfl fun f _ => ?_
  rw [h3 f]
  refine congrArg (· * W2 (ix2 e f)) (congrArg (max · _) (Finset.sum_congr rfl fun q _ => ?_))
  rw [h0 q, h1 q, h2 q f]

end Cert.KernelIdeal.Body

end
-- ==== Proof.KernelTiles.lean ====
/-
  The matrix of token rows the kernel leaves, tile by tile.

  Before the region the tokens are reshaped to [32768, 512] rows and cut to their first 8 channels, the angles become a
  [1, 8] row, and both weight matrices are transposed; the region works the rows off in 32 tiles of 1024, tile t
  holding rows 1024·t … 1024·t + 1023, every tile seeing the whole angle row and both whole weight matrices. What tile
  t writes back is tile t of the specification's matrix of token rows, and the 32 tiles fill that matrix.
-/
import proofs.«137447_j65481071396095_1_alg».proof.Proof.Gen.KernelIdeal.Frame
import proofs.«137447_j65481071396095_1_alg».proof.Proof.KernelBody
import Idealize.ShloMosaic.Lib.StableHlo.Run
import Idealize.ShloMosaic.Lib.Pipeline.Value
import Idealize.ShloMosaic.Lib.ValueLayout

noncomputable section

namespace Cert.KernelIdeal.Tiles

open Cert.KernelIdeal Cert.KernelIdeal.Gen Cert.KernelIdeal.Body Idealize.ShloMosaic Idealize.ShloMosaic.TcCoe Idealize.SL.Sem
open Idealize.ShloMosaic.StableHlo Idealize.ShloMosaic.ValueIdx Cert.WireMlp
open Idealize.ShloMosaic.Pipeline (Dat)

variable (m : (ℓ : Loc nD τ sig) → Buf (Elt Ideal) ℓ)

/-! ## The arrays the region finds, entry by entry -/

/-- Row `r`, channel `q` of the cut matrix of token rows is channel `q` of token (r / 2048, r % 2048). -/
theorem tokens_at (c : Dev nD) (r : Fin 32768) (q : Fin 8) :
    V m c main_v1 (ix2 r q) = (m ((c : Thread nD τ).loc main_arg0)) (ix3 (rowB r.val r.isLt) (rowS r.val) (chan q)) := by
  have e : V m c main_v1 = extractStridedSlice (α := EReal) S32768x8 ![0, 0]
      (shapeCast S32768x512 (m ((c : Thread nD τ).loc main_arg0)) shapeCasts_S16x2048x512_S32768x512) slices_S32768x512_S32768x8_0_0 := by
    show StableHlo.after hostOps0 (fun b => m (c, b)) (Proc.devRef .tc main_v1) = _
    after_results <;> rfl
  refine (congrFun e (ix2 r q)).trans ?_
  have hr : r.val < 32768 := r.isLt
  have hq : q.val < 8 := q.isLt
  refine (extractStridedSlice_apply _ _ _ (ix2 r q) (ix2 r (chan q)) (fun a => match a with
    | ⟨0, _⟩ => by show r.val = 0 + r.val; omega
    | ⟨1, _⟩ => by show q.val = 0 + q.val; omega)).trans ?_
  refine shapeCast_apply (s := S16x2048x512) (t := S32768x512) _ _ _ _ ?_
  show (S16x2048x512.rowMajor (ix3 (rowB r.val r.isLt) (rowS r.val) (chan q))).val = (S32768x512.rowMajor (ix2 r (chan q))).val
  rw [Shape.rowMajor_val_two, Shape.rowMajor_val_three]
  show (r.val / 2048 * 2048 + r.val % 2048) * 512 + q.val = r.val * 512 + q.val
  omega

/-- The angle row at wire `q` is the angle of wire `q`. -/
theorem angles_at (c : Dev nD) (q : Fin 8) :
    V m c main_v2 (ix2 (0 : Fin 1) q) = (m ((c : Thread nD τ).loc main_arg1)) (ix1 q) := by
  have e : V m c main_v2 = shapeCast (α := EReal) S1x8 (m ((c : Thread nD τ).loc main_arg1)) shapeCasts_S8_S1x8 := by
    show StableHlo.after hostOps0 (fun b => m (c, b)) (Proc.devRef .tc main_v2) = _
    after_results <;> rfl
  refine (congrFun e (ix2 (0 : Fin 1) q)).trans ?_
  exact shapeCast_a_1a_apply _ _ (0 : Fin 1) q

/-- The first weight matrix as the region finds it is the argument transposed (the change of float format is the
    identity). -/
theorem first_at (c : Dev nD) (q : Fin 8) (f : Fin 2048) :
    V m c main_v4 (ix2 q f) = (m ((c : Thread nD τ).loc main_arg2)) (ix2 f q) := by
  have e : V m c main_v4 = truncf (F := Ideal) .bf16 (transpose S8x2048 [1, 0] (m ((c : Thread nD τ).loc main_arg2)) transposes_S2048x8_S8x2048_1_0) bitsLt_bf16_f32 := by
    show StableHlo.after hostOps0 (fun b => m (c, b)) (Proc.devRef .tc main_v4) = _
    after_results <;> rfl
  refine (congrFun e (ix2 q f)).trans ?_
  exact transpose_ix2_apply _ _ q f

/-- The second weight matrix likewise. -/
theorem second_at (c : Dev nD) (f : Fin 2048) (e : Fin 512) :
    V m c main_v6 (ix2 f e) = (m ((c : Thread nD τ).loc main_arg3)) (ix2 e f) := by
  have h : V m c main_v6 = truncf (F := Ideal) .bf16 (transpose S2048x512 [1, 0] (m ((c : Thread nD τ).loc main_arg3)) transposes_S512x2048_S2048x512_1_0) bitsLt_bf16_f32 := by
    show StableHlo.after hostOps0 (fun b => m (c, b)) (Proc.devRef .tc main_v6) = _
    after_results <;> rfl
  refine (congrFun h (ix2 f e)).trans ?_
  exact transpose_ix2_apply _ _ f e

/-! ## The tiles -/

/-- The printed index maps, decided over the 32 tiles: the tokens' and the result's window move one tile per point,
    the other three stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem lt_tiles (t : Fin cfg0.N) : t.val < 32 :=
  Nat.lt_of_lt_of_eq t.isLt (show cfg0.N = 32 from N_0)

/-- Row `p` of tile `t` of the tokens' window is token row 1024·t + p. -/
theorem blk_tokens (c : Dev nD) (t : Fin cfg0.N) (p : Fin 1024) (q : Fin 8) :
    (iblk m c 0 t : Vec Ideal S1024x8 .f32) (ix2 p q)
      = (m ((c : Thread nD τ).loc main_arg0)) (ix3 (rowB (t.val * 1024 + p.val) (by have := lt_tiles t; have := p.isLt; omega)) (rowS (t.val * 1024 + p.val)) (chan q)) := by
  have ht := lt_tiles t
  have hp : p.val < 1024 := p.isLt
  have hq : q.val < 8 := q.isLt
  obtain ⟨e0, e1, -⟩ := idx_facts t
  unfold iblk
  rw [View.read_apply]
  show V m c main_v1 _ = _
  have hemb : ((cfg0.win 0).blk t).view.emb (ix2 p q) = ix2 (⟨t.val * 1024 + p.val, by omega⟩ : Fin 32768) q :=
    funext fun a => Fin.ext (by
      match a with
      | ⟨0, _⟩ => show win0_0.index t (0 : Fin 2) * 1024 + 1 * p.val = t.val * 1024 + p.val; omega
      | ⟨1, _⟩ => show win0_0.index t (1 : Fin 2) * 8 + 1 * q.val = q.val; omega)
  rw [hemb]
  exact tokens_at m c _ q

/-- Every tile sees the whole angle row, -/
theorem blk_angles (c : Dev nD) (t : Fin cfg0.N) (q : Fin 8) :
    (iblk m c 1 t : Vec Ideal S1x8 .f32) (ix2 (0 : Fin 1) q) = (m ((c : Thread nD τ).loc main_arg1)) (ix1 q) := by
  have hq : q.val < 8 := q.isLt
  obtain ⟨-, -, e2, e3, -⟩ := idx_facts t
  unfold iblk
  rw [View.read_apply]
  show V m c main_v2 _ = _
  have hemb : ((cfg0.win 1).blk t).view.emb (ix2 (0 : Fin 1) q) = ix2 (0 : Fin 1) q :=
    funext fun a => Fin.ext (by
      match a with
      | ⟨0, _⟩ => show win0_1.index t (0 : Fin 2) * 1 + 1 * 0 = 0; omega
      | ⟨1, _⟩ => show win0_1.index t (1 : Fin 2) * 8 + 1 * q.val = q.val; omega)
  rw [hemb]
  exact angles_at m c q

/-- the whole first weight matrix, -/
theorem blk_first (c : Dev nD) (t : Fin cfg0.N) (q : Fin 8) (f : Fin 2048) :
    (iblk m c 2 t : Vec Ideal S8x2048 .bf16) (ix2 q f) = (m ((c : Thread nD τ).loc main_arg2)) (ix2 f q) := by
  have hq : q.val < 8 := q.isLt
  have hf : f.val < 2048 := f.isLt
  obtain ⟨-, -, -, -, e4, e5, -⟩ := idx_facts t
  unfold iblk
  rw [View.read_apply]
  show V m c main_v4 _ = _
  have hemb : ((cfg0.win 2).blk t).view.emb (ix2 q f) = ix2 q f :=
    funext fun a => Fin.ext (by
      match a with
      | ⟨0, _⟩ => show win0_2.index t (0 : Fin 2) * 8 + 1 * q.val = q.val; omega
      | ⟨1, _⟩ => show win0_2.index t (1 : Fin 2) * 2048 + 1 * f.val = f.val; omega)
  rw [hemb]
  exact first_at m c q f

/-- and the whole second weight matrix. -/
theorem blk_second (c : Dev nD) (t : Fin cfg0.N) (f : Fin 2048) (e : Fin 512) :
    (iblk m c 3 t : Vec Ideal S2048x512 .bf16) (ix2 f e) = (m ((c : Thread nD τ).loc main_arg3)) (ix2 e f) := by
  have he : e.val < 512 := e.isLt
  have hf : f.val < 2048 := f.isLt
  obtain ⟨-, -, -, -, -, -, e6, e7, -⟩ := idx_facts t
  unfold iblk
  rw [View.read_apply]
  show V m c main_v6 _ = _
  have hemb : ((cfg0.win 3).blk t).view.emb (ix2 f e) = ix2 f e :=
    funext fun a => Fin.ext (by
      match a with
      | ⟨0, _⟩ => show win0_3.index t (0 : Fin 2) * 2048 + 1 * f.val = f.val; omega
      | ⟨1, _⟩ => show win0_3.index t (1 : Fin 2) * 512 + 1 * e.val = e.val; omega)
  rw [hemb]
  exact second_at m c f e

theorem hz : (![0, 0] : Fin 2 → Nat) = fun _ => 0 := funext fun a => by fin_cases a <;> rfl

/-- What point `t` writes back is tile `t` of the specification's matrix of token rows. -/
theorem flushed_eq (c : Dev nD) (t : Fin cfg0.N) :
    (dats m 0 c).flushed 4 t = ((cfg0.win 4).blk t).view.read (Elt Ideal) (mlpRows (m ((c : Thread nD τ).loc main_arg0)) (m ((c : Thread nD τ).loc main_arg1)) (m ((c : Thread nD τ).loc main_arg2)) (m ((c : Thread nD τ).loc main_arg3))) := by
  have ht := lt_tiles t
  obtain ⟨-, -, -, -, -, -, -, -, e8, e9⟩ := idx_facts t
  show (cfg0.win 4).cut (grid0.coords t) ((dats m 0 c).after 4 t) = _
  rw [after0_4]
  unfold out0_4
  rw [View.canon_unit_zero hz]
  simp only [View.ld_unit_zero (S := S1024x8) hz, View.ld_unit_zero (S := S1x8) hz, View.ld_unit_zero (S := S8x2048) hz, View.ld_unit_zero (S := S2048x512) hz]
  funext j
  obtain ⟨p, e, rfl⟩ : ∃ (p : Fin 1024) (e : Fin 512), j = ix2 p e := ⟨j 0, j 1, eq_ix2 j⟩
  have hp : p.val < 1024 := p.isLt
  have he : e.val < 512 := e.isLt
  rw [View.read_apply]
  have hemb : ((cfg0.win 4).blk t).view.emb (ix2 p e) = ix2 (⟨t.val * 1024 + p.val, by omega⟩ : Fin 32768) e :=
    funext fun a => Fin.ext (by
      match a with
      | ⟨0, _⟩ => show win0_4.index t (0 : Fin 2) * 1024 + 1 * p.val = t.val * 1024 + p.val; omega
      | ⟨1, _⟩ => show win0_4.index t (1 : Fin 2) * 512 + 1 * e.val = e.val; omega)
  rw [hemb]
  exact tile_entry _ _ _ _ (iblk m c 0 t) (iblk m c 1 t) (iblk m c 2 t) (iblk m c 3 t) ⟨t.val * 1024 + p.val, by omega⟩ p e
    (fun q => blk_tokens m c t p q) (fun q => blk_angles m c t q) (fun q f => blk_first m c t q f) (fun f => blk_second m c t f e)

/-- An entry of the matrix is in tile `t` iff its row is one of the tile's 1024 (and its channel one of the 512). -/
theorem mem_blk (t : Fin cfg0.N) (i : S32768x512.Idx) :
    i ∈ ((cfg0.win 4).blk t).view.set ↔ ∀ a : Fin 2, win0_4.index t a * S1024x512.size a ≤ (i a).val ∧ (i a).val < win0_4.index t a * S1024x512.size a + S1024x512.size a := by
  show i ∈ ((View.whole main_v7).slice (win0_4.rect t)).set ↔ _
  rw [View.set_slice_whole, Rect.mem_set_unit]
  exact Iff.rfl

/-- The 32 tiles fill the matrix: row `r` is in tile `r / 1024`. -/
theorem cover (i : S32768x512.Idx) : ∃ t : Fin cfg0.N, (cfg0.win 4).flush t = true ∧ i ∈ ((cfg0.win 4).blk t).view.set := by
  have hi0 : (i 0).val < 32768 := (i 0).isLt
  have hi1 : (i 1).val < 512 := (i 1).isLt
  have hlt : (i 0).val / 1024 < cfg0.N := by rw [show cfg0.N = 32 from N_0]; omega
  refine ⟨⟨(i 0).val / 1024, hlt⟩, flush0_4 _, ?_⟩
  obtain ⟨-, -, -, -, -, -, -, -, e8, e9⟩ := idx_facts ⟨(i 0).val / 1024, hlt⟩
  rw [mem_blk]
  intro a
  match a with
  | ⟨0, _⟩ =>
    show win0_4.index ⟨(i 0).val / 1024, hlt⟩ (0 : Fin 2) * 1024 ≤ (i 0).val ∧ (i 0).val < win0_4.index ⟨(i 0).val / 1024, hlt⟩ (0 : Fin 2) * 1024 + 1024
    rw [e8]
    show (i 0).val / 1024 * 1024 ≤ (i 0).val ∧ (i 0).val < (i 0).val / 1024 * 1024 + 1024
    omega
  | ⟨1, _⟩ =>
    show win0_4.index ⟨(i 0).val / 1024, hlt⟩ (1 : Fin 2) * 512 ≤ (i 1).val ∧ (i 1).val < win0_4.index ⟨(i 0).val / 1024, hlt⟩ (1 : Fin 2) * 512 + 512
    rw [e9]
    omega

/-- So after the region the matrix of token rows holds the specification's. -/
theorem rows_final (c : Dev nD) : (dats m 0 c).arrAt 4 cfg0.N = mlpRows (m ((c : Thread nD τ).loc main_arg0)) (m ((c : Thread nD τ).loc main_arg1)) (m ((c : Thread nD τ).loc main_arg2)) (m ((c : Thread nD τ).loc main_arg3)) :=
  (dats m 0 c).arrAt_eq_of_cover 4 _ (fun t _ => flushed_eq m c t) cover

end Cert.KernelIdeal.Tiles

end
-- ==== Proof.KernelRun.lean ====
/-
  The kernel's whole run: after the region one reshape lays the [32768, 512] matrix of token rows out as
  [16, 2048, 512] tokens, so the program's result is the specification, and its four arguments end as they began.
-/
import proofs.«137447_j65481071396095_1_alg».proof.Proof.KernelTiles

noncomputable section

namespace Cert.KernelIdeal.Whole

open Cert.KernelIdeal Cert.KernelIdeal.Gen Cert.KernelIdeal.Tiles Idealize.ShloMosaic Idealize.ShloMosaic.TcCoe Idealize.SL.Sem
open Idealize.ShloMosaic.StableHlo Idealize.ShloMosaic.ValueIdx Cert.WireMlp

variable (m : (ℓ : Loc nD τ sig) → Buf (Elt Ideal) ℓ) (ρ : Dev nD → PrngReg)

/-- The result buffer after the last host line: the region's matrix of token rows, reshaped. -/
theorem result_final (c : Dev nD) :
    Pipeline.afterTail₀ cfgs (dats m) 0 (V0 m) [hostOps1] c main_v8 = mlp (m ((c : Thread nD τ).loc main_arg0)) (m ((c : Thread nD τ).loc main_arg1)) (m ((c : Thread nD τ).loc main_arg2)) (m ((c : Thread nD τ).loc main_arg3)) := by
  unfold Pipeline.afterTail₀
  show StableHlo.after hostOps1 _ (Proc.devRef .tc main_v8) = _
  after_results
  show shapeCast S16x2048x512 (Pipeline.withArrays (cfgs 0).spec c (V0 m c) (fun w => (dats m 0 c).arrAt w (cfgs 0).N) (Proc.devRef .tc main_v7))
      shapeCasts_S32768x512_S16x2048x512 = _
  have hw : Pipeline.withArrays (cfgs 0).spec c (V0 m c) (fun w => (dats m 0 c).arrAt w (cfgs 0).N) (Proc.devRef .tc main_v7)
      = mlpRows (m ((c : Thread nD τ).loc main_arg0)) (m ((c : Thread nD τ).loc main_arg1)) (m ((c : Thread nD τ).loc main_arg2)) (m ((c : Thread nD τ).loc main_arg3)) :=
    (Pipeline.withArrays_arr spec0 launch0.win.arr_inj c _ _ 4).trans (rows_final m c)
  rw [hw]
  exact reshape_mlpRows _ _ _ _ _

/-- Every weakly fair execution of the program terminates with the result buffer at the specification of the four
    arguments, and the arguments unchanged. -/
theorem run : θ_run defs (onTc (τ := τ) (main (F := Ideal))) ⟨m, fun _ => 0, ρ⟩ fun r => ∀ c : Dev nD,
      r.2.mem ((c.tc : Thread nD τ).loc main_v8) = mlp (m ((c : Thread nD τ).loc main_arg0)) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v8 (Pipeline.mem_restRefs_of main_v8 (by decide) (by decide))).trans (result_final m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Whole

end
-- ==== Proof.lean ====
/-
  A per-token "wire" nonlinearity followed by a two-layer perceptron, computed by a tiled kernel and by a plain
  reference, are one function over the extended reals.

  For a token (b, s) only the first 8 of its 512 channels are used. Both programs compute
      out[b,s,e] = Σ_f max(Σ_q cos(2·x[b,s,q] + θ[q]) · W1[f,q], 0) · W2[e,f]        (Proof/Spec.lean).
  The reference does so with two contractions over the last axes (Proof/RefSpec.lean). The kernel lays the tokens out
  as 32768 rows, works them off in 32 tiles of 1024 rows against the two weight matrices transposed, each product into a
  zero accumulator and each change of float format the identity over the extended reals (Proof/KernelBody.lean); tile
  t writes rows 1024·t … 1024·t + 1023 of the specification's matrix of rows, the tiles fill it
  (Proof/KernelTiles.lean), and the closing reshape returns the rows to tokens (Proof/KernelRun.lean). No law of
  arithmetic is needed beyond reading both sides entry by entry: the two sums are the same sums, so the inputs'
  finiteness is never used. The three programs' runs terminate and leave their arguments unchanged; nothing was
  rewritten in idealizing the kernel, so that claim is trivially true.
-/
import proofs.«137447_j65481071396095_1_alg».proof.Defs
import proofs.«137447_j65481071396095_1_alg».proof.Proof.Gen.Kernel
import proofs.«137447_j65481071396095_1_alg».proof.Proof.Gen.Kernel.Frame
import proofs.«137447_j65481071396095_1_alg».proof.Proof.Gen.KernelIdeal
import proofs.«137447_j65481071396095_1_alg».proof.Proof.Gen.KernelIdeal.Frame
import proofs.«137447_j65481071396095_1_alg».proof.Proof.Gen.ReferenceIdeal
import proofs.«137447_j65481071396095_1_alg».proof.Proof.Gen.ReferenceIdeal.Run
import proofs.«137447_j65481071396095_1_alg».proof.Proof.Gen.ReferenceIdeal.Read
import proofs.«137447_j65481071396095_1_alg».proof.Proof.Gen.Pre_finite_inputs
import proofs.«137447_j65481071396095_1_alg».proof.Proof.RefSpec
import proofs.«137447_j65481071396095_1_alg».proof.Proof.KernelRun
import Idealize.ShloMosaic.Adequacy
import Idealize.ShloMosaic.Init

noncomputable section

namespace Cert.Proof

open Idealize.ShloMosaic Idealize.SL.Sem

/-- The kernel as printed runs to the end and keeps its arguments. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten in idealizing it. -/
theorem preserves : Cert.preserves_Kernel_KernelIdeal := trivial

/-- From memories that agree on the four arguments both programs end with their result at the specification of
    those arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v9_eq (F := Ideal) _ _ _ _).trans (Cert.ReferenceIdeal.RefValue.result_eq _ _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
